-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x64 : Shape := ⟨2, ![10000, 64]⟩
abbrev S10000x16 : Shape := ⟨2, ![10000, 16]⟩
abbrev S200x10000 : Shape := ⟨2, ![200, 10000]⟩
abbrev S200x16 : Shape := ⟨2, ![200, 16]⟩
abbrev S200x64 : Shape := ⟨2, ![200, 64]⟩
abbrev S200 : Shape := ⟨1, ![200]⟩
abbrev S200x1 : Shape := ⟨2, ![200, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x64, .f32⟩
  | .hbm, ⟨9, _⟩ => ⟨S10000x16, .f32⟩
  | .hbm, ⟨10, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S200x10000, .f32⟩
  | .local _ .vmem, ⟨4, _⟩ => ⟨S200x10000, .f32⟩
  | .local _ .vmem, ⟨5, _⟩ => ⟨S10000x64, .f32⟩
  | .local _ .vmem, ⟨6, _⟩ => ⟨S1x64, .f32⟩
  | .local _ .vmem, ⟨7, _⟩ => ⟨S64x16, .f32⟩
  | .local _ .vmem, ⟨8, _⟩ => ⟨S200x16, .f32⟩
  | .local _ .vmem, ⟨9, _⟩ => ⟨S200x16, .f32⟩
  | .local _ .vmem, ⟨10, _⟩ => ⟨S200x10000, .f32⟩
  | .local _ .vmem, ⟨11, _⟩ => ⟨S200x10000, .f32⟩
  | .local _ .vmem, ⟨12, _⟩ => ⟨S10000x16, .f32⟩
  | .local _ .vmem, ⟨13, _⟩ => ⟨S1x16, .f32⟩
  | .local _ .vmem, ⟨14, _⟩ => ⟨S200x16, .f32⟩
  | .local _ .vmem, ⟨15, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x16_S64x16_0_0 : ∀ a, (![0, 0] : Fin 2 → Nat) a + S64x16.size a ≤ S64x16.size a
  h_S64x16 : 0 < S64x16.numel
  inb_S200x16_S200x16_0_0 : ∀ a, (![0, 0] : Fin 2 → Nat) a + S200x16.size a ≤ S200x16.size a
  h_S200x16 : 0 < S200x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  reduces_S200x16_S200 : S200x16.Reduces [1] S200
  shapeCasts_S200_S200x1 : S200.ShapeCasts S200x1
  broadcasts_S200x1_S200x16 : S200x1.Broadcasts S200x16
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x16.size a ≤ S10000x16.size a
  hwx1_4 : ∀ i : grid1.Coords, EltTy.bits .f32 = 32 ∨ (Rect.block (s := S10000x16) S200x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S10000x16.size a
  hwx2_3 : ∀ i : grid2.Coords, EltTy.bits .f32 = 32 ∨ (Rect.block (s := S10000x16) S200x16.size (cc2_transform_3 i) (hinb2_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1, .f32⟩
  | .hbm, ⟨35, _⟩ => ⟨S10000x16, .f32⟩
  | .hbm, ⟨36, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v14 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The function both programs compute, entry by entry, on the extended reals: a two-layer graph convolution with a dense
  adjacency matrix followed by a row-wise log-softmax,

      out = logsoftmax (adj · (relu (adj · (x · W1) + b1) · W2) + b2).

  A matrix product is the sum over the contraction index of the products of entries (no order, no rounding); the bias
  is one row added to every row; relu is the maximum with 0; the log-softmax of a row subtracts the row's maximum and
  then the logarithm of the sum of the exponentials of the shifted row. Nothing here mentions a program: the two
  programs' values are each shown equal to `gcn` of their arguments elsewhere.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The product of an n × k and a k × p matrix: entry (r, q) is the sum over j of a(r, j) · b(j, q). -/
def mm {n k p : Nat} (a : (⟨2, ![n, k]⟩ : Shape).Idx → EReal) (b : (⟨2, ![k, p]⟩ : Shape).Idx → EReal) :
    (⟨2, ![n, p]⟩ : Shape).Idx → EReal :=
  fun i => ∑ j : Fin k, a (ix2 (i 0) j) * b (ix2 j (i 1))

theorem mm_apply {n k p : Nat} (a : (⟨2, ![n, k]⟩ : Shape).Idx → EReal) (b : (⟨2, ![k, p]⟩ : Shape).Idx → EReal)
    (r : Fin n) (q : Fin p) : mm a b (ix2 r q) = ∑ j : Fin k, a (ix2 r j) * b (ix2 j q) := rfl

/-- A vector of n entries as a 1 × n matrix. -/
def row {n : Nat} (b : (⟨1, ![n]⟩ : Shape).Idx → EReal) : (⟨2, ![1, n]⟩ : Shape).Idx → EReal :=
  fun i => b (ix1 (i 1))

/-- The hidden layer after its activation: relu (a · s + b), the one-row bias added to every row. -/
def hidden (adj : (⟨2, ![10000, 10000]⟩ : Shape).Idx → EReal) (s : (⟨2, ![10000, 64]⟩ : Shape).Idx → EReal)
    (b1r : (⟨2, ![1, 64]⟩ : Shape).Idx → EReal) : (⟨2, ![10000, 64]⟩ : Shape).Idx → EReal :=
  fun i => max (mm adj s i + b1r (ix2 0 (i 1))) 0

/-- The first layer with the second layer's projection fused: relu (adj · s + b1) · W2. -/
def layer1 (adj : (⟨2, ![10000, 10000]⟩ : Shape).Idx → EReal) (s : (⟨2, ![10000, 64]⟩ : Shape).Idx → EReal)
    (b1r : (⟨2, ![1, 64]⟩ : Shape).Idx → EReal) (w2 : (⟨2, ![64, 16]⟩ : Shape).Idx → EReal) :
    (⟨2, ![10000, 16]⟩ : Shape).Idx → EReal :=
  mm (hidden adj s b1r) w2

/-- The logits: adj · h + b2. -/
def logits (adj : (⟨2, ![10000, 10000]⟩ : Shape).Idx → EReal) (h : (⟨2, ![10000, 16]⟩ : Shape).Idx → EReal)
    (b2r : (⟨2, ![1, 16]⟩ : Shape).Idx → EReal) : (⟨2, ![10000, 16]⟩ : Shape).Idx → EReal :=
  fun i => mm adj h i + b2r (ix2 0 (i 1))

/-- The maximum of row r of a 10000 × 16 matrix, from −∞. -/
def rowMax (o : (⟨2, ![10000, 16]⟩ : Shape).Idx → EReal) (r : Fin 10000) : EReal :=
  (Finset.univ : Finset (Fin 16)).fold max ⊥ (fun j => o (ix2 r j))

/-- The row-wise log-softmax: (o − rowmax) − log Σ_j exp (o(r, j) − rowmax). -/
def logSoftmax (o : (⟨2, ![10000, 16]⟩ : Shape).Idx → EReal) : (⟨2, ![10000, 16]⟩ : Shape).Idx → EReal :=
  fun i => (o i - rowMax o (i 0)) - Ideal.log (∑ j : Fin 16, Ideal.exp (o (ix2 (i 0) j) - rowMax o (i 0)))

/-- The second layer: logsoftmax (adj · h + b2). -/
def layer2 (adj : (⟨2, ![10000, 10000]⟩ : Shape).Idx → EReal) (h : (⟨2, ![10000, 16]⟩ : Shape).Idx → EReal)
    (b2r : (⟨2, ![1, 16]⟩ : Shape).Idx → EReal) : (⟨2, ![10000, 16]⟩ : Shape).Idx → EReal :=
  logSoftmax (logits adj h b2r)

/-- The whole network. -/
def gcn (x : (⟨2, ![10000, 128]⟩ : Shape).Idx → EReal) (adj : (⟨2, ![10000, 10000]⟩ : Shape).Idx → EReal)
    (w1 : (⟨2, ![128, 64]⟩ : Shape).Idx → EReal) (b1 : (⟨1, ![64]⟩ : Shape).Idx → EReal)
    (w2 : (⟨2, ![64, 16]⟩ : Shape).Idx → EReal) (b2 : (⟨1, ![16]⟩ : Shape).Idx → EReal) :
    (⟨2, ![10000, 16]⟩ : Shape).Idx → EReal :=
  layer2 adj (layer1 adj (mm x w1) (row b1) w2) (row b2)

end Cert.Spec

end
-- ==== Proof.Region0.lean ====
/-
  The first kernel: the product x · W1 of the whole 10000 × 128 input and the 128 × 64 weight in ONE block (no grid: one
  point, whose block of each operand is the whole array). The block the point writes back is the matrix product entry
  by entry, `∑ k, x (r, k) · W1 (k, q)`: the accumulator is the zero splat, and the contraction index of the printed
  dimension numbers (one contracted axis of extent 128) is re-indexed by its one coordinate.
-/
import proofs.«158791_g40973988004062_cont_8to1_b_1328_2_alg».proof.Proof.Gen.KernelIdeal.Frame
import proofs.«158791_g40973988004062_cont_8to1_b_1328_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The contraction's operand indices, axis by axis -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at entry (r, q): the sum over k of x (r, k) · w (k, q). -/
theorem pay_apply (x0 : Vec Ideal S10000x128 .f32) (x1 : Vec Ideal S128x64 .f32) (r : Fin 10000) (q : Fin 64) :
    k0_pay1 (F := Ideal) x0 x1 (ix2 r q) = ∑ k : Fin 128, x0 (ix2 r k) * x1 (ix2 k q) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r q) ((contrEquiv1 dot_S10000x128_S128x64_S10000x64_1_0_0_1_n_n 128 rfl rfl).symm k) = ix2 r k := funext fun a => Fin.ext (by
    match a with
    | ⟨0, _⟩ => exact lhs_0 _ _
    | ⟨1, _⟩ => exact (lhs_1 _ _).trans hk)
  have er : dot_S10000x128_S128x64_S10000x64_1_0_0_1_n_n.rhsIdx (ix2 r q) ((contrEquiv1 dot_S10000x128_S128x64_S10000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The whole-buffer rectangle starts at the origin. -/
theorem hz : (![0, 0] : Fin 2 → Nat) = fun _ => 0 := funext fun a => by fin_cases a <;> rfl

/-- What the one point writes back is the whole product. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  show k0_pay1 (F := Ideal) (iblk0 V c 0 t) (iblk0 V c 1 t) j
    = Cert.Spec.mm (V c main_arg0) (V c main_arg2) (((cfg0.win 2).blk t).view.emb j)
  refine (congrArg (k0_pay1 (F := Ideal) (iblk0 V c 0 t) (iblk0 V c 1 t)) (eq_ix2 (n0 := 10000) (n1 := 64) j)).trans ?_
  refine (pay_apply (iblk0 V c 0 t) (iblk0 V c 1 t) (j 0) (j 1)).trans ?_
  unfold Cert.Spec.mm
  refine Finset.sum_congr rfl fun k _ => ?_
  have e0 : ((cfg0.win 0).blk t).view.emb (ix2 (j 0) k) = ix2 ((((cfg0.win 2).blk t).view.emb j) 0) k := by
    funext a; apply Fin.ext
    match a with
    | ⟨0, _⟩ => rfl
    | ⟨1, _⟩ => show 0 * 128 + 1 * k.val = k.val; omega
  have e1 : ((cfg0.win 1).blk t).view.emb (ix2 k (j 1)) = ix2 k ((((cfg0.win 2).blk t).view.emb j) 1) := by
    funext a; apply Fin.ext
    match a with
    | ⟨0, _⟩ => show 0 * 128 + 1 * k.val = k.val; omega
    | ⟨1, _⟩ => rfl
  exact congrArg₂ (fun a b : EReal => a * b) (congrArg (V c main_arg0) e0) (congrArg (V c main_arg2) e1)

/-- The result array after the kernel: the one block covers every index, so the array is the product. -/
theorem final (c : Dev nD) :
    (dat0 (F := Ideal) V c).arrAt 2 cfg0.N = Cert.Spec.mm (V c main_arg0) (V c main_arg2) := by
  refine (dat0 (F := Ideal) V c).arrAt_eq_of_cover 2 _ (fun t _ => flushed_eq V c t) fun i => ?_
  refine ⟨t0_0, flush0_2 t0_0, ?_⟩
  show i ∈ ((View.whole main_v2).slice (win0_2.rect t0_0)).set
  rw [View.set_slice_whole, Rect.mem_set_unit]
  intro a
  match a with
  | ⟨0, _⟩ =>
    show 0 * 10000 ≤ (i 0).val ∧ (i 0).val < 0 * 10000 + 10000
    have h : (i 0).val < 10000 := (i 0).isLt
    omega
  | ⟨1, _⟩ =>
    show 0 * 64 ≤ (i 1).val ∧ (i 1).val < 0 * 64 + 64
    have h : (i 1).val < 64 := (i 1).isLt
    omega

end Cert.KernelIdeal.Region0

end
-- ==== Proof.Region1.lean ====
/- Region 1 of the kernel: the first graph-convolution layer with the second layer's projection fused.
   The region runs over 50 points; point t reads rows 200t … 200t+199 of the adjacency matrix, the whole of
   the projected features s, the one-row bias and the 64 × 16 weight matrix, and writes rows 200t … 200t+199
   of the result. This module shows that the result array after the region is
   relu (adj · s + bias) · W2, entry by entry: first what one point's body computes at an entry of its block
   (two matrix products into zero accumulators with a bias row and a maximum with zero between them), then
   that each point writes back its block of that one whole-array function, and that the 50 blocks cover the
   array's 10000 rows. -/
import proofs.«158791_g40973988004062_cont_8to1_b_1328_2_alg».proof.Proof.Gen.KernelIdeal.Frame
import proofs.«158791_g40973988004062_cont_8to1_b_1328_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value at an entry of its block -/

/-! The first product, a 200 × 10000 block of adj times the 10000 × 64 matrix s: where its two factors are read. -/

/-- The left factor's row is the result's row. -/
theorem lhs_adj_s_0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
/-- The left factor's column is the summation index. -/
theorem lhs_adj_s_1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
/-- The right factor's row is the summation index. -/
theorem rhs_adj_s_0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
/-- The right factor's column is the result's column. -/
theorem rhs_adj_s_1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl

/-- The first product into a zero accumulator, at entry (r, k): the sum over n of a(r, n) · b(n, k). -/
theorem adj_s_apply (a : FVec Ideal S200x10000 .f32) (b : FVec Ideal S10000x64 .f32) (r : Fin 200) (k : Fin 64) :
    FloatOps.matmul dot_S200x10000_S10000x64_S200x64_1_0_0_1_n_n none a b (constant S200x64 .f32 0x00000000#32) (ix2 r k)
      = ∑ n : Fin 10000, a (ix2 r n) * b (ix2 n k) := by
  rw [Ideal.matmul_constant_zero_apply, ← Equiv.sum_comp (contrEquiv1 dot_S200x10000_S10000x64_S200x64_1_0_0_1_n_n 10000 rfl rfl).symm]
  refine Finset.sum_congr rfl fun n _ => ?_
  have hn := contrEquiv1_symm_val dot_S200x10000_S10000x64_S200x64_1_0_0_1_n_n 10000 rfl rfl n
  have el : dot_S200x10000_S10000x64_S200x64_1_0_0_1_n_n.lhsIdx (ix2 r k) ((contrEquiv1 dot_S200x10000_S10000x64_S200x64_1_0_0_1_n_n 10000 rfl rfl).symm n) = ix2 r n := funext fun x => Fin.ext (by
    match x with
    | ⟨0, _⟩ => exact lhs_adj_s_0 _ _
    | ⟨1, _⟩ => exact (lhs_adj_s_1 _ _).trans hn)
  have er : dot_S200x10000_S10000x64_S200x64_1_0_0_1_n_n.rhsIdx (ix2 r k) ((contrEquiv1 dot_S200x10000_S10000x64_S200x64_1_0_0_1_n_n 10000 rfl rfl).symm n) = ix2 n k := funext fun x => Fin.ext (by
    match x with
    | ⟨0, _⟩ => exact (rhs_adj_s_0 _ _).trans hn
    | ⟨1, _⟩ => exact rhs_adj_s_1 _ _)
  rw [el, er]

/-! The second product, the 200 × 64 hidden block times the 64 × 16 weight matrix: where its two factors are read. -/

/-- The left factor's row is the result's row. -/
theorem lhs_h_w_0 (i : S200x16.Idx) (q : dot_S200x64_S64x16_S200x16_1_0_0_1_n_n.contr.Idx) :
    (dot_S200x64_S64x16_S200x16_1_0_0_1_n_n.lhsIdx i q 0).val = (i 0).val := by
  unfold DotDims.lhsIdx
  rw [dif_neg (show ¬(0 : Fin S200x64.rank) ∈ dot_S200x64_S64x16_S200x16_1_0_0_1_n_n.lhsBatch by decide), dif_pos (show (0 : Fin S200x64.rank) ∈ dot_S200x64_S64x16_S200x16_1_0_0_1_n_n.lhsNonContracting by decide)]
  rfl
/-- The left factor's column is the summation index. -/
theorem lhs_h_w_1 (i : S200x16.Idx) (q : dot_S200x64_S64x16_S200x16_1_0_0_1_n_n.contr.Idx) :
    (dot_S200x64_S64x16_S200x16_1_0_0_1_n_n.lhsIdx i q 1).val = (q ⟨0, by decide⟩).val :=
  dot_S200x64_S64x16_S200x16_1_0_0_1_n_n.lhsIdx_val_of_single rfl i q
/-- The right factor's row is the summation index. -/
theorem rhs_h_w_0 (i : S200x16.Idx) (q : dot_S200x64_S64x16_S200x16_1_0_0_1_n_n.contr.Idx) :
    (dot_S200x64_S64x16_S200x16_1_0_0_1_n_n.rhsIdx i q 0).val = (q ⟨0, by decide⟩).val :=
  dot_S200x64_S64x16_S200x16_1_0_0_1_n_n.rhsIdx_val_of_single rfl i q
/-- The right factor's column is the result's column. -/
theorem rhs_h_w_1 (i : S200x16.Idx) (q : dot_S200x64_S64x16_S200x16_1_0_0_1_n_n.contr.Idx) :
    (dot_S200x64_S64x16_S200x16_1_0_0_1_n_n.rhsIdx i q 1).val = (i 1).val := by
  unfold DotDims.rhsIdx
  rw [dif_neg (show ¬(1 : Fin S64x16.rank) ∈ dot_S200x64_S64x16_S200x16_1_0_0_1_n_n.rhsBatch by decide), dif_pos (show (1 : Fin S64x16.rank) ∈ dot_S200x64_S64x16_S200x16_1_0_0_1_n_n.rhsNonContracting by decide)]
  rfl

/-- The second product into a zero accumulator, at entry (r, q): the sum over k of h(r, k) · w(k, q). -/
theorem h_w_apply (h : FVec Ideal S200x64 .f32) (w : FVec Ideal S64x16 .f32) (r : Fin 200) (q : Fin 16) :
    FloatOps.matmul dot_S200x64_S64x16_S200x16_1_0_0_1_n_n none h w (constant S200x16 .f32 0x00000000#32) (ix2 r q)
      = ∑ k : Fin 64, h (ix2 r k) * w (ix2 k q) := by
  rw [Ideal.matmul_constant_zero_apply, ← Equiv.sum_comp (contrEquiv1 dot_S200x64_S64x16_S200x16_1_0_0_1_n_n 64 rfl rfl).symm]
  refine Finset.sum_congr rfl fun k _ => ?_
  have hk := contrEquiv1_symm_val dot_S200x64_S64x16_S200x16_1_0_0_1_n_n 64 rfl rfl k
  have el : dot_S200x64_S64x16_S200x16_1_0_0_1_n_n.lhsIdx (ix2 r q) ((contrEquiv1 dot_S200x64_S64x16_S200x16_1_0_0_1_n_n 64 rfl rfl).symm k) = ix2 r k := funext fun x => Fin.ext (by
    match x with
    | ⟨0, _⟩ => exact lhs_h_w_0 _ _
    | ⟨1, _⟩ => exact (lhs_h_w_1 _ _).trans hk)
  have er : dot_S200x64_S64x16_S200x16_1_0_0_1_n_n.rhsIdx (ix2 r q) ((contrEquiv1 dot_S200x64_S64x16_S200x16_1_0_0_1_n_n 64 rfl rfl).symm k) = ix2 k q := funext fun x => Fin.ext (by
    match x with
    | ⟨0, _⟩ => exact (rhs_h_w_0 _ _).trans hk
    | ⟨1, _⟩ => exact rhs_h_w_1 _ _)
  rw [el, er]

/-- What the body computes at entry (r, q) of its block: the hidden row r — the product of the adj block with s,
    plus the bias row, cut below at zero — times column q of the weight matrix. -/
theorem pay_apply (x0 : Vec Ideal S200x10000 .f32) (x1 : Vec Ideal S10000x64 .f32) (x2 : Vec Ideal S1x64 .f32)
    (x3 : Vec Ideal S64x16 .f32) (r : Fin 200) (q : Fin 16) :
    k1_pay1 (F := Ideal) x0 x1 x2 x3 (ix2 r q)
      = ∑ k : Fin 64, max ((∑ n : Fin 10000, x0 (ix2 r n) * x1 (ix2 n k)) + x2 (ix2 0 k)) 0 * x3 (ix2 k q) := by
  unfold k1_pay1
  refine (h_w_apply _ _ r q).trans ?_
  refine Finset.sum_congr rfl fun k _ => ?_
  show max ((FloatOps.matmul (F := Ideal) dot_S200x10000_S10000x64_S200x64_1_0_0_1_n_n none x0 (shapeCast S10000x64 x1 shapeCasts_S10000x64_S10000x64) (constant (F := Ideal) S200x64 .f32 0x00000000#32) (ix2 r k)) + broadcastTo S200x64 (shapeCast S1x64 x2 shapeCasts_S1x64_S1x64) broadcasts_S1x64_S200x64 (ix2 r k)) (Ideal.ofBits .f32 0x00000000#32) * x3 (ix2 k q) = _
  rw [shapeCast_self, shapeCast_self, adj_s_apply, broadcastTo_1b_ab_apply, Ideal.ofBits_zero_f32]

/-- Entry (ρ, q) of relu (a · s + b) · w, written out: the sum over k of the hidden entry (ρ, k) times w(k, q). -/
theorem layer1_apply (a : (⟨2, ![10000, 10000]⟩ : Shape).Idx → EReal) (s : (⟨2, ![10000, 64]⟩ : Shape).Idx → EReal)
    (b : (⟨2, ![1, 64]⟩ : Shape).Idx → EReal) (w : (⟨2, ![64, 16]⟩ : Shape).Idx → EReal) (ρ : Fin 10000) (q : Fin 16) :
    Cert.Spec.layer1 a s b w (ix2 ρ q)
      = ∑ k : Fin 64, max ((∑ n : Fin 10000, a (ix2 ρ n) * s (ix2 n k)) + b (ix2 0 k)) 0 * w (ix2 k q) := rfl

-- the TensorCore's buffer contents when the region is entered, at the extended reals
variable (V : (c : Dev nD) → (b : Ref sig .tc) → Buf (Elt Ideal) ((c : Thread nD τ).loc b))

/-! ## From the points' blocks to the whole array -/

/-- The body reads and writes its blocks from their corner. -/
theorem off_zero : (![0, 0] : Fin 2 → Nat) = fun _ => 0 := funext fun a => by fin_cases a <;> rfl

/-- The region has 50 points. -/
theorem point_lt (t : Fin cfg1.N) : t.val < 50 := lt_of_lt_of_eq t.isLt N_1

/-- The block index maps over the 50 points: point t's adj block and result block are block row t; s, the bias
    row and the weight matrix are read whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, n) of point t's adj block is adj at row 200 t + r, column n. -/
theorem adj_blk (c : Dev nD) (t : Fin cfg1.N) (r : Fin 200) (n : Fin 10000) :
    iblk1 (F := Ideal) V c 0 t (ix2 r n)
      = V c main_arg1 (ix2 (⟨t.val * 200 + r.val, by have := point_lt t; omega⟩ : Fin 10000) n) := by
  obtain ⟨e0, e1, -⟩ := idx_facts t
  show V c main_arg1 (((cfg1.win 0).blk t).view.emb (ix2 r n)) = _
  refine congrArg (V c main_arg1) (funext fun a => Fin.ext ?_)
  match a with
  | ⟨0, _⟩ => show win1_0.index t (0 : Fin 2) * 200 + 1 * r.val = t.val * 200 + r.val; omega
  | ⟨1, _⟩ => show win1_0.index t (1 : Fin 2) * 10000 + 1 * n.val = n.val; omega

/-- Every point's s block is the whole of s. -/
theorem s_blk (c : Dev nD) (t : Fin cfg1.N) (n : Fin 10000) (k : Fin 64) :
    iblk1 (F := Ideal) V c 1 t (ix2 n k) = V c main_v2 (ix2 n k) := by
  obtain ⟨-, -, e0, e1, -⟩ := idx_facts t
  show V c main_v2 (((cfg1.win 1).blk t).view.emb (ix2 n k)) = _
  refine congrArg (V c main_v2) (funext fun a => Fin.ext ?_)
  match a with
  | ⟨0, _⟩ => show win1_1.index t (0 : Fin 2) * 10000 + 1 * n.val = n.val; omega
  | ⟨1, _⟩ => show win1_1.index t (1 : Fin 2) * 64 + 1 * k.val = k.val; omega

/-- Every point's bias block is the whole bias row. -/
theorem bias_blk (c : Dev nD) (t : Fin cfg1.N) (k : Fin 64) :
    iblk1 (F := Ideal) V c 2 t (ix2 (0 : Fin 1) k) = V c main_v0 (ix2 (0 : Fin 1) k) := by
  obtain ⟨-, -, -, -, e0, e1, -⟩ := idx_facts t
  show V c main_v0 (((cfg1.win 2).blk t).view.emb (ix2 (0 : Fin 1) k)) = _
  refine congrArg (V c main_v0) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 64 + 1 * k.val = k.val; omega

/-- Every point's weight block is the whole weight matrix. -/
theorem w_blk (c : Dev nD) (t : Fin cfg1.N) (k : Fin 64) (q : Fin 16) :
    iblk1 (F := Ideal) V c 3 t (ix2 k q) = V c main_arg4 (ix2 k q) := by
  obtain ⟨-, -, -, -, -, -, e0, e1, -⟩ := idx_facts t
  show V c main_arg4 (((cfg1.win 3).blk t).view.emb (ix2 k q)) = _
  refine congrArg (V c main_arg4) (funext fun a => Fin.ext ?_)
  match a with
  | ⟨0, _⟩ => show win1_3.index t (0 : Fin 2) * 64 + 1 * k.val = k.val; omega
  | ⟨1, _⟩ => show win1_3.index t (1 : Fin 2) * 16 + 1 * q.val = q.val; omega

/-- Entry (r, q) of point t's result block lies at row 200 t + r, column q of the result array. -/
theorem out_emb (t : Fin cfg1.N) (r : Fin 200) (q : Fin 16) :
    ((cfg1.win 4).blk t).view.emb (ix2 r q)
      = ix2 (⟨t.val * 200 + r.val, by have := point_lt t; omega⟩ : Fin 10000) q := by
  obtain ⟨-, -, -, -, -, -, -, -, e0, e1⟩ := idx_facts t
  refine funext fun a => Fin.ext ?_
  match a with
  | ⟨0, _⟩ => show win1_4.index t (0 : Fin 2) * 200 + 1 * r.val = t.val * 200 + r.val; omega
  | ⟨1, _⟩ => show win1_4.index t (1 : Fin 2) * 16 + 1 * q.val = q.val; omega

/-- What point t writes back is block t of relu (adj · s + bias) · W2 of the arrays as the region finds them. -/
theorem flushed_eq (c : Dev nD) (t : Fin cfg1.N) :
    (dat1 (F := Ideal) V c).flushed 4 t
      = ((cfg1.win 4).blk t).view.read (Elt Ideal) (Cert.Spec.layer1 (V c main_arg1) (V c main_v2) (V c main_v0) (V c main_arg4)) := by
  show (cfg1.win 4).cut (grid1.coords t) ((dat1 (F := Ideal) V c).after 4 t) = _
  rw [after1_4]
  unfold out1_4
  rw [View.canon_unit_zero off_zero]
  simp only [View.ld_unit_zero (S := S200x10000) off_zero, View.ld_unit_zero (S := S10000x64) off_zero,
    View.ld_unit_zero (S := S1x64) off_zero, View.ld_unit_zero (S := S64x16) off_zero]
  funext j
  obtain ⟨r, q, rfl⟩ : ∃ (r : Fin 200) (q : Fin 16), j = ix2 r q := ⟨j 0, j 1, eq_ix2 j⟩
  refine (pay_apply _ _ _ _ r q).trans ?_
  refine Eq.trans ?_ (congrArg (Cert.Spec.layer1 (V c main_arg1) (V c main_v2) (V c main_v0) (V c main_arg4)) (out_emb t r q)).symm
  refine Eq.trans ?_ (layer1_apply _ _ _ _ _ q).symm
  refine Finset.sum_congr rfl fun k _ => ?_
  refine congrArg₂ (fun x y : EReal => x * y) ?_ (w_blk V c t k q)
  refine congrArg (fun x : EReal => max x 0) ?_
  refine congrArg₂ (fun x y : EReal => x + y) ?_ (bias_blk V c t k)
  exact Finset.sum_congr rfl fun n _ => congrArg₂ (fun x y : EReal => x * y) (adj_blk V c t r n) (s_blk V c t n k)

/-- An index of the result array is in point t's block iff each coordinate is in the block's range on its axis. -/
theorem mem_blk (t : Fin cfg1.N) (i : S10000x16.Idx) :
    i ∈ ((cfg1.win 4).blk t).view.set ↔ ∀ a : Fin 2, win1_4.index t a * S200x16.size a ≤ (i a).val ∧ (i a).val < win1_4.index t a * S200x16.size a + S200x16.size a := by
  show i ∈ ((View.whole main_v3).slice (win1_4.rect t)).set ↔ _
  rw [View.set_slice_whole, Rect.mem_set_unit]
  exact Iff.rfl

/-- The 50 blocks cover the result array: row ρ lies in the block of point ρ / 200. -/
theorem cover (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  have hN : (i 0).val / 200 < cfg1.N := by rw [show cfg1.N = 50 from N_1]; omega
  obtain ⟨-, -, -, -, -, -, -, -, e0, e1⟩ := idx_facts ⟨(i 0).val / 200, hN⟩
  have e0' : win1_4.index ⟨(i 0).val / 200, hN⟩ (0 : Fin 2) = (i 0).val / 200 := e0
  refine ⟨⟨(i 0).val / 200, hN⟩, flush1_4 _, ?_⟩
  rw [mem_blk]
  intro a
  match a with
  | ⟨0, _⟩ => show win1_4.index ⟨(i 0).val / 200, hN⟩ (0 : Fin 2) * 200 ≤ (i 0).val ∧ (i 0).val < win1_4.index ⟨(i 0).val / 200, hN⟩ (0 : Fin 2) * 200 + 200; omega
  | ⟨1, _⟩ => show win1_4.index ⟨(i 0).val / 200, hN⟩ (1 : Fin 2) * 16 ≤ (i 1).val ∧ (i 1).val < win1_4.index ⟨(i 0).val / 200, hN⟩ (1 : Fin 2) * 16 + 16; omega

/-- The result array after the region: relu (adj · s + bias) · W2 of the arrays as the region finds them. -/
theorem final (c : Dev nD) :
    (dat1 (F := Ideal) V c).arrAt 4 cfg1.N = Cert.Spec.layer1 (V c main_arg1) (V c main_v2) (V c main_v0) (V c main_arg4) :=
  (dat1 (F := Ideal) V c).arrAt_eq_of_cover 4 _ (fun t _ => flushed_eq V c t) cover

end Cert.KernelIdeal.Region1

end
-- ==== Proof.Region2.lean ====
/-
  The third kernel: the second layer, logsoftmax (adj · h + b2), over a grid of 50 points. Point t reads rows
  200 t … 200 t + 199 of the adjacency matrix, the whole 10000 × 16 matrix h and the 1 × 16 bias row, and writes rows
  200 t … 200 t + 199 of the result. The block it writes is, entry by entry, the row-wise log-softmax of the block's
  logits: the product into the zero accumulator is the sum over the 10000 columns (the one contracted axis re-indexed
  by its coordinate), the bias row is broadcast over the rows, the lane maximum from −∞ and the lane sum from 0 are
  folds over the 16 entries of a row, kept as 200 × 1 columns and broadcast back over the lanes. A row's logits involve
  only that row of the adjacency matrix, so block t of the result is block t of the specification's second layer of the
  whole arrays; the 50 blocks cover every row (row R lies in block R / 200), so the array ends holding that function.
-/
import proofs.«158791_g40973988004062_cont_8to1_b_1328_2_alg».proof.Proof.Gen.KernelIdeal.Frame
import proofs.«158791_g40973988004062_cont_8to1_b_1328_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The product read at an index -/

theorem lhs_dot_0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem lhs_dot_1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
theorem rhs_dot_0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
theorem rhs_dot_1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- The block product into the zero accumulator, at (r, q): the sum over the 10000 columns of the left rows. -/
theorem mm_apply (x0 : Vec Ideal S200x10000 .f32) (x1 : Vec Ideal S10000x16 .f32) (r : Fin 200) (q : Fin 16) :
    matmul (F := Ideal) (φ₁ := .f32) (φ₂ := .f32) dot_S200x10000_S10000x16_S200x16_1_0_0_1_n_n none x0 x1 (constant (F := Ideal) S200x16 .f32 0x00000000#32) (ix2 r q)
      = ∑ n : Fin 10000, x0 (ix2 r n) * x1 (ix2 n q) := by
  refine (Ideal.matmul_constant_zero_apply (φ₁ := .f32) (φ₂ := .f32) dot_S200x10000_S10000x16_S200x16_1_0_0_1_n_n none x0 x1 (ix2 r q)).trans ?_
  rw [← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 r q) ((contrEquiv1 dot_S200x10000_S10000x16_S200x16_1_0_0_1_n_n 10000 rfl rfl).symm k) = ix2 r k := funext fun a => Fin.ext (by
    match a with
    | ⟨0, _⟩ => exact lhs_dot_0 _ _
    | ⟨1, _⟩ => exact (lhs_dot_1 _ _).trans hk)
  have er : dot_S200x10000_S10000x16_S200x16_1_0_0_1_n_n.rhsIdx (ix2 r q) ((contrEquiv1 dot_S200x10000_S10000x16_S200x16_1_0_0_1_n_n 10000 rfl rfl).symm k) = ix2 k q := funext fun a => Fin.ext (by
    match a with
    | ⟨0, _⟩ => exact (rhs_dot_0 _ _).trans hk
    | ⟨1, _⟩ => exact rhs_dot_1 _ _)
  rw [el, er]

/-! ## A column kept from a lane reduction -/

section Column
variable {α : Type}

/-- An `[a]` vector cast to the `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The lane reductions of a 200 × 16 block, read at a row -/

/-- The pattern the lane maximum starts from is −∞. -/
theorem ofBits_neg_inf : FloatOps.ofBits (F := Ideal) .f32 0xFF800000#32 = (⊥ : EReal) := by
  show Ideal.ofBits .f32 0xFF800000#32 = ⊥
  simp [Ideal.ofBits, Ideal.ieee]

/-- Row r with the lane coordinate k put back is the index (r, k). -/
theorem lift_row (h : S200x16.Reduces [1] S200) (r : Fin 200) (k : Fin 16) : h.lift (ix1 r) k = ix2 r k := by
  funext a; apply Fin.ext
  match a with
  | ⟨0, _⟩ => rfl
  | ⟨1, _⟩ => rfl

/-- The lane maximum from −∞ at row r: the fold of max over the 16 entries of the row. -/
theorem rowmax_apply (v : FVec Ideal S200x16 .f32) (h : S200x16.Reduces [1] S200) (hφ) (hacc) (r : Fin 200) :
    multiReduction (F := Ideal) .maximumf [1] S200 v 0xFF800000#32 h hφ hacc (ix1 r)
      = (Finset.univ : Finset (Fin 16)).fold max ⊥ (fun j => v (ix2 r j)) := by
  refine (Ideal.multiReduction_maximumf_single v _ h hφ hacc (ix1 r)).trans ?_
  have hf : (v ∘ h.lift (ix1 r)) = fun j : Fin 16 => v (ix2 r j) := funext fun k => congrArg v (lift_row h r k)
  rw [ofBits_neg_inf, hf]
  rfl

/-- The lane sum from 0 at row r: the sum of the 16 entries of the row. -/
theorem rowsum_apply (v : FVec Ideal S200x16 .f32) (h : S200x16.Reduces [1] S200) (hφ) (hacc) (r : Fin 200) :
    multiReduction (F := Ideal) .add [1] S200 v 0x00000000#32 h hφ hacc (ix1 r)
      = ∑ j : Fin 16, v (ix2 r j) := by
  refine (Ideal.multiReduction_add_single v _ h hφ hacc (ix1 r)).trans ?_
  exact Finset.sum_congr rfl fun k _ => congrArg v (lift_row h r k)

/-! ## The payload read at an index -/

theorem vexp_apply {s : Shape} {φ : FTy} (x : FVec Ideal s φ) (i : s.Idx) : exp x i = Ideal.exp (x i) := rfl
theorem vlog_apply {s : Shape} {φ : FTy} (x : FVec Ideal s φ) (i : s.Idx) : log x i = Ideal.log (x i) := rfl

/-- The row-wise log-softmax of a 200 × 16 block as the body computes it — the lane maximum from −∞ kept as a column
    and broadcast, the exponentials' lane sum from 0 kept as a column, its logarithm broadcast, two subtractions —
    read at (r, q): (v(r, q) − max_r) − log Σ_j exp (v(r, j) − max_r). -/
theorem lsm_apply (v : FVec Ideal S200x16 .f32) (hr : S200x16.Reduces [1] S200) (hφ) (ha1) (ha2)
    (hc : S200.ShapeCasts S200x1) (hb : S200x1.Broadcasts S200x16) (r : Fin 200) (q : Fin 16) :
    subf (subf v (broadcastTo S200x16 (shapeCast S200x1 (multiReduction (F := Ideal) .maximumf [1] S200 v 0xFF800000#32 hr hφ ha1) hc) hb))
        (broadcastTo S200x16 (log (shapeCast S200x1 (multiReduction (F := Ideal) .add [1] S200
          (exp (subf v (broadcastTo S200x16 (shapeCast S200x1 (multiReduction (F := Ideal) .maximumf [1] S200 v 0xFF800000#32 hr hφ ha1) hc) hb)))
          0x00000000#32 hr hφ ha2) hc)) hb) (ix2 r q)
      = (v (ix2 r q) - (Finset.univ : Finset (Fin 16)).fold max ⊥ (fun j => v (ix2 r j)))
        - Ideal.log (∑ j : Fin 16, Ideal.exp (v (ix2 r j) - (Finset.univ : Finset (Fin 16)).fold max ⊥ (fun j => v (ix2 r j)))) := by
  -- the broadcast column of maxima, at any lane of row r, is the row's maximum
  have hM : ∀ c : Fin 16, broadcastTo S200x16 (shapeCast S200x1 (multiReduction (F := Ideal) .maximumf [1] S200 v 0xFF800000#32 hr hφ ha1) hc) hb (ix2 r c)
      = (Finset.univ : Finset (Fin 16)).fold max ⊥ (fun j => v (ix2 r j)) := fun c =>
    (broadcastTo_a1_ab_apply _ hb r c).trans ((shapeCast_a_a1_apply _ hc r 0).trans (rowmax_apply v hr hφ ha1 r))
  rw [subf_apply, subf_apply, hM]
  refine congrArg (fun z : EReal => (v (ix2 r q) - (Finset.univ : Finset (Fin 16)).fold max ⊥ (fun j => v (ix2 r j))) - z) ?_
  refine (broadcastTo_a1_ab_apply _ hb r q).trans ?_
  rw [vlog_apply]
  refine congrArg Ideal.log ?_
  refine (shapeCast_a_a1_apply _ hc r 0).trans ((rowsum_apply _ hr hφ ha2 r).trans ?_)
  refine Finset.sum_congr rfl fun j _ => ?_
  rw [vexp_apply, subf_apply, hM]

section Payload
variable (x0 : Vec Ideal S200x10000 .f32) (x1 : Vec Ideal S10000x16 .f32) (x2 : Vec Ideal S1x16 .f32)

/-- The block's logits: row r of the left block times the right matrix, plus the bias row. -/
def lg (r : Fin 200) (j : Fin 16) : EReal := (∑ n : Fin 10000, x0 (ix2 r n) * x1 (ix2 n j)) + x2 (ix2 0 j)

/-- The maximum of row r of the block's logits, from −∞. -/
def mx (r : Fin 200) : EReal := (Finset.univ : Finset (Fin 16)).fold max ⊥ (fun j => lg x0 x1 x2 r j)

/-- The product into the zero accumulator plus the broadcast bias row, at (r, q), is the logit. -/
theorem logits_apply (h1 : S10000x16.ShapeCasts S10000x16) (h2 : S1x16.ShapeCasts S1x16) (h3 : S1x16.Broadcasts S200x16)
    (r : Fin 200) (q : Fin 16) :
    addf (matmul (F := Ideal) (φ₁ := .f32) (φ₂ := .f32) dot_S200x10000_S10000x16_S200x16_1_0_0_1_n_n none x0 (shapeCast S10000x16 x1 h1)
        (constant (F := Ideal) S200x16 .f32 0x00000000#32)) (broadcastTo S200x16 (shapeCast S1x16 x2 h2) h3) (ix2 r q)
      = lg x0 x1 x2 r q := by
  rw [shapeCast_self, shapeCast_self, addf_apply]
  exact congrArg₂ (· + ·) (mm_apply x0 x1 r q) (broadcastTo_1b_ab_apply x2 h3 r q)

/-- THE PAYLOAD AT (r, q): the log-softmax of the block's logits along the row. -/
theorem pay_apply (r : Fin 200) (q : Fin 16) :
    k2_pay1 (F := Ideal) x0 x1 x2 (ix2 r q)
      = (lg x0 x1 x2 r q - mx x0 x1 x2 r) - Ideal.log (∑ j : Fin 16, Ideal.exp (lg x0 x1 x2 r j - mx x0 x1 x2 r)) := by
  unfold k2_pay1
  refine (lsm_apply _ _ _ _ _ _ _ r q).trans ?_
  unfold mx
  simp only [logits_apply]

end Payload

/-! ## The payload against the specification, entry by entry -/

/-- If row r of the left block is row R of the adjacency matrix, the right block is h and the bias block is the bias
    row, the payload at (r, q) is the specification's second layer at (R, q): the same logits, hence the same row
    maximum, the same sum of exponentials and the same difference. -/
theorem pay_eq_spec (A : (⟨2, ![10000, 10000]⟩ : Shape).Idx → EReal) (H : (⟨2, ![10000, 16]⟩ : Shape).Idx → EReal)
    (B : (⟨2, ![1, 16]⟩ : Shape).Idx → EReal)
    (x0 : Vec Ideal S200x10000 .f32) (x1 : Vec Ideal S10000x16 .f32) (x2 : Vec Ideal S1x16 .f32)
    (R : Fin 10000) (r : Fin 200)
    (h0 : ∀ n : Fin 10000, x0 (ix2 r n) = A (ix2 R n))
    (h1 : ∀ (n : Fin 10000) (q : Fin 16), x1 (ix2 n q) = H (ix2 n q))
    (h2 : ∀ q : Fin 16, x2 (ix2 0 q) = B (ix2 0 q)) (q : Fin 16) :
    k2_pay1 (F := Ideal) x0 x1 x2 (ix2 r q) = Cert.Spec.layer2 A H B (ix2 R q) := by
  rw [pay_apply]
  have hlg : ∀ q' : Fin 16, lg x0 x1 x2 r q' = Cert.Spec.logits A H B (ix2 R q') := fun q' => by
    unfold lg
    show _ = (∑ n : Fin 10000, A (ix2 R n) * H (ix2 n q')) + B (ix2 0 q')
    rw [h2 q']
    refine congrArg (· + B (ix2 0 q')) (Finset.sum_congr rfl fun n _ => ?_)
    rw [h0 n, h1 n q']
  show _ = (Cert.Spec.logits A H B (ix2 R q) - Cert.Spec.rowMax (Cert.Spec.logits A H B) R)
    - Ideal.log (∑ j : Fin 16, Ideal.exp (Cert.Spec.logits A H B (ix2 R j) - Cert.Spec.rowMax (Cert.Spec.logits A H B) R))
  unfold mx Cert.Spec.rowMax
  simp only [hlg]

/-! ## What a point writes back -/

/-- The whole-buffer rectangle starts at the origin. -/
theorem hz : (![0, 0] : Fin 2 → Nat) = fun _ => 0 := funext fun a => by fin_cases a <;> rfl

/-- The block index maps over the 50 points: point t's block of the adjacency matrix and of the result is block row
    t; the blocks of h and of the bias row are the whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t — rows 200 t … 200 t + 199 — of the second layer of the arrays as the region finds them. -/
theorem flushed_eq (c : Dev nD) (t : Fin cfg2.N) :
    (dat2 (F := Ideal) V c).flushed 3 t
      = ((cfg2.win 3).blk t).view.read (Elt Ideal) (Cert.Spec.layer2 (V c main_arg1) (V c main_v3) (V c main_v1)) := by
  show (cfg2.win 3).cut (grid2.coords t) ((dat2 V c).after 3 t) = _
  rw [after2_3]
  unfold out2_3
  rw [View.canon_unit_zero hz]
  simp only [View.ld_unit_zero (S := S200x10000) hz, View.ld_unit_zero (S := S10000x16) hz, View.ld_unit_zero (S := S1x16) hz]
  obtain ⟨a0, a1, b0, b1, d0, d1, o0, o1⟩ := idx_facts t
  funext j
  show k2_pay1 (F := Ideal) (iblk2 V c 0 t) (iblk2 V c 1 t) (iblk2 V c 2 t) j
    = Cert.Spec.layer2 (V c main_arg1) (V c main_v3) (V c main_v1) (((cfg2.win 3).blk t).view.emb j)
  have hj0 : (j 0).val < 200 := (j 0).isLt
  have hj1 : (j 1).val < 16 := (j 1).isLt
  -- the entry's place in the array: row 200 t + (j 0), column (j 1)
  have hR : ix2 ((((cfg2.win 3).blk t).view.emb j) 0) (j 1) = ((cfg2.win 3).blk t).view.emb j := by
    funext a; apply Fin.ext
    match a with
    | ⟨0, _⟩ => rfl
    | ⟨1, _⟩ => show (j 1).val = win2_3.index t (1 : Fin 2) * 16 + 1 * (j 1).val; omega
  refine (congrArg (k2_pay1 (F := Ideal) (iblk2 V c 0 t) (iblk2 V c 1 t) (iblk2 V c 2 t)) (eq_ix2 (n0 := 200) (n1 := 16) j)).trans ?_
  refine (pay_eq_spec (V c main_arg1) (V c main_v3) (V c main_v1) (iblk2 V c 0 t) (iblk2 V c 1 t) (iblk2 V c 2 t)
    ((((cfg2.win 3).blk t).view.emb j) 0) (j 0) (fun n => ?_) (fun n q => ?_) (fun q => ?_) (j 1)).trans ?_
  · -- row (j 0) of the adjacency block is row 200 t + (j 0) of the matrix
    have e : ((cfg2.win 0).blk t).view.emb (ix2 (j 0) n) = ix2 ((((cfg2.win 3).blk t).view.emb j) 0) n := by
      funext a; apply Fin.ext
      match a with
      | ⟨0, _⟩ => show win2_0.index t (0 : Fin 2) * 200 + 1 * (j 0).val = win2_3.index t (0 : Fin 2) * 200 + 1 * (j 0).val; omega
      | ⟨1, _⟩ => show win2_0.index t (1 : Fin 2) * 10000 + 1 * n.val = n.val; omega
    exact congrArg (V c main_arg1) e
  · -- the block of h is the whole array
    have e : ((cfg2.win 1).blk t).view.emb (ix2 n q) = ix2 n q := by
      funext a; apply Fin.ext
      match a with
      | ⟨0, _⟩ => show win2_1.index t (0 : Fin 2) * 10000 + 1 * n.val = n.val; omega
      | ⟨1, _⟩ => show win2_1.index t (1 : Fin 2) * 16 + 1 * q.val = q.val; omega
    exact congrArg (V c main_v3) e
  · -- the block of the bias row is the whole row
    have e : ((cfg2.win 2).blk t).view.emb (ix2 (0 : Fin 1) q) = ix2 (0 : Fin 1) q := by
      funext a; apply Fin.ext
      match a with
      | ⟨0, _⟩ => show win2_2.index t (0 : Fin 2) * 1 + 1 * 0 = 0; omega
      | ⟨1, _⟩ => show win2_2.index t (1 : Fin 2) * 16 + 1 * q.val = q.val; omega
    exact congrArg (V c main_v1) e
  · exact congrArg (Cert.Spec.layer2 (V c main_arg1) (V c main_v3) (V c main_v1)) hR

/-! ## The result array after the 50 points -/

theorem final (c : Dev nD) :
    (dat2 (F := Ideal) V c).arrAt 3 cfg2.N = Cert.Spec.layer2 (V c main_arg1) (V c main_v3) (V c main_v1) := by
  refine (dat2 (F := Ideal) V c).arrAt_eq_of_cover 3 _ (fun t _ => flushed_eq V c t) fun i => ?_
  have hi0 : (i 0).val < 10000 := (i 0).isLt
  have hi1 : (i 1).val < 16 := (i 1).isLt
  -- row (i 0) lies in block row (i 0) / 200
  have ht : (i 0).val / 200 < cfg2.N := by show (i 0).val / 200 < 50; omega
  obtain ⟨-, -, -, -, -, -, o0, o1⟩ := idx_facts ⟨(i 0).val / 200, ht⟩
  refine ⟨⟨(i 0).val / 200, ht⟩, flush2_3 _, ?_⟩
  show i ∈ ((View.whole main_v4).slice (win2_3.rect ⟨(i 0).val / 200, ht⟩)).set
  rw [View.set_slice_whole, Rect.mem_set_unit]
  intro a
  match a with
  | ⟨0, _⟩ =>
    show win2_3.index ⟨(i 0).val / 200, ht⟩ (0 : Fin 2) * 200 ≤ (i 0).val
      ∧ (i 0).val < win2_3.index ⟨(i 0).val / 200, ht⟩ (0 : Fin 2) * 200 + 200
    rw [o0]
    show (i 0).val / 200 * 200 ≤ (i 0).val ∧ (i 0).val < (i 0).val / 200 * 200 + 200
    omega
  | ⟨1, _⟩ =>
    show win2_3.index ⟨(i 0).val / 200, ht⟩ (1 : Fin 2) * 16 ≤ (i 1).val
      ∧ (i 1).val < win2_3.index ⟨(i 0).val / 200, ht⟩ (1 : Fin 2) * 16 + 16
    omega

end Cert.KernelIdeal.Region2

end
-- ==== Proof.KernelValue.lean ====
/-
  The kernel program's result as a function of its six arguments. Its three kernels run one after the other, each
  entered at the buffer contents the one before left: the first leaves x · W1 in a buffer the second reads whole; the
  second leaves relu (adj · (x · W1) + b1) · W2 in a buffer the third reads whole; the third leaves the log-softmax of
  adj · that + b2 in the result. The two bias vectors are reshaped to one row before the kernels, and no kernel writes an
  argument or a buffer an earlier one wrote, so each operand read back through the boundaries is what the argument
  memory or the earlier kernel put there. Composing the three kernels' values gives `Cert.Spec.gcn`.
-/
import proofs.«158791_g40973988004062_cont_8to1_b_1328_2_alg».proof.Proof.Gen.KernelIdeal.Frame
import proofs.«158791_g40973988004062_cont_8to1_b_1328_2_alg».proof.Proof.Spec
import proofs.«158791_g40973988004062_cont_8to1_b_1328_2_alg».proof.Proof.Region0
import proofs.«158791_g40973988004062_cont_8to1_b_1328_2_alg».proof.Proof.Region1
import proofs.«158791_g40973988004062_cont_8to1_b_1328_2_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- A vector of n entries reshaped to 1 × n is the vector as one row. -/
theorem shapeCast_row {n : Nat} (b : (⟨1, ![n]⟩ : Shape).Idx → EReal) (h : (⟨1, ![n]⟩ : Shape).ShapeCasts ⟨2, ![1, n]⟩) :
    shapeCast ⟨2, ![1, n]⟩ b h = Cert.Spec.row b := by
  funext i
  obtain ⟨u, q, rfl⟩ : ∃ (u : Fin 1) (q : Fin n), i = ix2 u q := ⟨i 0, i 1, eq_ix2 i⟩
  exact shapeCast_a_1a_apply b h u q

variable (m : (ℓ : Loc nD τ sig) → Buf (Elt Ideal) ℓ) (ρ : Dev nD → PrngReg)

/-! ## Before the first kernel: the arguments as launched, the two bias vectors reshaped to rows -/

theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_v0 (c : Dev nD) : W1 m ρ c (Proc.devRef .tc main_v0) = Cert.Spec.row (m ((c : Thread nD τ).loc main_arg3)) := by
  show StableHlo.after hostOps0 (W0 m ρ c) (Proc.devRef .tc main_v0) = _
  after_results
  exact shapeCast_row _ _
theorem W1_v1 (c : Dev nD) : W1 m ρ c (Proc.devRef .tc main_v1) = Cert.Spec.row (m ((c : Thread nD τ).loc main_arg5)) := by
  show StableHlo.after hostOps0 (W0 m ρ c) (Proc.devRef .tc main_v1) = _
  after_results
  exact shapeCast_row _ _

/-! ## After the first kernel: x · W1 in its result buffer, everything else as before -/

theorem W2_arg1 (c : Dev nD) : W2 m ρ c (Proc.devRef .tc main_arg1) = (m ((c : Thread nD τ).loc main_arg1)) :=
  (W2_of_ne m ρ c main_arg1 (by decide)).trans (W1_arg1 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_v0 (c : Dev nD) : W2 m ρ c (Proc.devRef .tc main_v0) = Cert.Spec.row (m ((c : Thread nD τ).loc main_arg3)) :=
  (W2_of_ne m ρ c main_v0 (by decide)).trans (W1_v0 m ρ c)
theorem W2_v1 (c : Dev nD) : W2 m ρ c (Proc.devRef .tc main_v1) = Cert.Spec.row (m ((c : Thread nD τ).loc main_arg5)) :=
  (W2_of_ne m ρ c main_v1 (by decide)).trans (W1_v1 m ρ c)
theorem W2_v2 (c : Dev nD) : W2 m ρ c (Proc.devRef .tc main_v2) = Cert.Spec.mm (m ((c : Thread nD τ).loc main_arg0)) (m ((c : Thread nD τ).loc main_arg2)) :=
  (W2_arr m ρ c 2).trans ((Cert.KernelIdeal.Region0.final (V1 m ρ) c).trans (by
    show Cert.Spec.mm (W1 m ρ c (Proc.devRef .tc main_arg0)) (W1 m ρ c (Proc.devRef .tc main_arg2)) = _
    rw [W1_arg0, W1_arg2]))

/-! ## After the second kernel: the projected hidden layer in its result buffer -/

theorem W3_arg1 (c : Dev nD) : W3 m ρ c (Proc.devRef .tc main_arg1) = (m ((c : Thread nD τ).loc main_arg1)) :=
  (W3_arr m ρ c 0).trans (((dat1 (V2 m ρ) c).arrAt_in 0 rfl _).trans ((A_eq1 (V2 m ρ) c 0).trans (W2_arg1 m ρ c)))
theorem W3_v1 (c : Dev nD) : W3 m ρ c (Proc.devRef .tc main_v1) = Cert.Spec.row (m ((c : Thread nD τ).loc main_arg5)) :=
  (W3_of_ne m ρ c main_v1 (by decide)).trans (W2_v1 m ρ c)
theorem W3_v3 (c : Dev nD) : W3 m ρ c (Proc.devRef .tc main_v3)
    = Cert.Spec.layer1 (m ((c : Thread nD τ).loc main_arg1)) (Cert.Spec.mm (m ((c : Thread nD τ).loc main_arg0)) (m ((c : Thread nD τ).loc main_arg2))) (Cert.Spec.row (m ((c : Thread nD τ).loc main_arg3))) (m ((c : Thread nD τ).loc main_arg4)) :=
  (W3_arr m ρ c 4).trans ((Cert.KernelIdeal.Region1.final (V2 m ρ) c).trans (by
    show Cert.Spec.layer1 (W2 m ρ c (Proc.devRef .tc main_arg1)) (W2 m ρ c (Proc.devRef .tc main_v2)) (W2 m ρ c (Proc.devRef .tc main_v0)) (W2 m ρ c (Proc.devRef .tc main_arg4)) = _
    rw [W2_arg1, W2_v2, W2_v0, W2_arg4]))

/-! ## After the third kernel: the result -/

/-- The result buffer after the run is the network's function of the six arguments. -/
theorem value (c : Dev nD) :
    W4 m ρ c (Proc.devRef .tc main_v4)
      = Cert.Spec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (W4_arr m ρ c 3).trans ((Cert.KernelIdeal.Region2.final (V3 m ρ) c).trans (by
    show Cert.Spec.layer2 (W3 m ρ c (Proc.devRef .tc main_arg1)) (W3 m ρ c (Proc.devRef .tc main_v3)) (W3 m ρ c (Proc.devRef .tc main_v1)) = _
    rw [W3_arg1, W3_v3, W3_v1]
    rfl))

end Cert.KernelIdeal.KValue

end
-- ==== Proof.RefValue.lean ====
/-
  The reference program's result, as a function of its six arguments, is the specification's network: a two-layer
  graph convolution followed by a row-wise log-softmax, over the extended reals. With x : 10000 × 128,
  adj : 10000 × 10000, W1 : 128 × 64, b1 : 64, W2 : 64 × 16, b2 : 16:
    s            = x · W1                  (entry (r, q) is the sum over j of x(r, j) · W1(j, q))
    hidden       = max (adj · s + b1) 0    (b1 added to every row; the maximum with 0 is taken twice, and
                                            max (max a 0) 0 = max a 0)
    h            = hidden · W2
    o            = adj · h + b2            (b2 added to every row)
    m(r)         = the maximum of row r of o, folded from −∞ over its 16 entries (a further maximum with −∞
                   is the identity)
    result(r, q) = (o(r, q) − m(r)) − log Σ_j exp (o(r, j) − m(r)), the row sum taken from 0.
  Each stage below is a whole-array equation against the specification's function for it. An entry (r, q) of a
  product depends on row r of its left factor and column q of its right one; an entry (r, q) of the result depends
  on row r of the logits only.
-/
import proofs.«158791_g40973988004062_cont_8to1_b_1328_2_alg».proof.Proof.RefRead
import proofs.«158791_g40973988004062_cont_8to1_b_1328_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- x · W1 is the specification's product. -/
theorem v0_eq (x0 : (⟨S10000x128, .f32⟩ : BufTy).Contents (Elt Ideal)) (x2 : (⟨S128x64, .f32⟩ : BufTy).Contents (Elt Ideal)) :
    val_main_v0 (F := Ideal) x0 x2 = Cert.Spec.mm x0 x2 := by
  funext i
  obtain ⟨r, q, rfl⟩ : ∃ (r : Fin 10000) (q : Fin 64), i = ix2 r q := ⟨i 0, i 1, eq_ix2 i⟩
  rw [val_main_v0_apply, Cert.Spec.mm_apply]
  refine Finset.sum_congr rfl fun k _ => ?_
  rw [show lidx_main_v0 (ix2 r q) k = ix2 r k from funext fun a => by match a with | ⟨0, _⟩ => rfl | ⟨1, _⟩ => rfl,
    show ridx_main_v0 (ix2 r q) k = ix2 k q from funext fun a => by match a with | ⟨0, _⟩ => rfl | ⟨1, _⟩ => rfl]

/-- adj · (x · W1). -/
theorem v1_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) :
    val_main_v1 (F := Ideal) x0 x1 x2 = Cert.Spec.mm x1 (Cert.Spec.mm x0 x2) := by
  funext i
  obtain ⟨r, q, rfl⟩ : ∃ (r : Fin 10000) (q : Fin 64), i = ix2 r q := ⟨i 0, i 1, eq_ix2 i⟩
  rw [val_main_v1_apply, v0_eq, Cert.Spec.mm_apply]
  refine Finset.sum_congr rfl fun k _ => ?_
  rw [show lidx_main_v1 (ix2 r q) k = ix2 r k from funext fun a => by match a with | ⟨0, _⟩ => rfl | ⟨1, _⟩ => rfl,
    show ridx_main_v1 (ix2 r q) k = ix2 k q from funext fun a => by match a with | ⟨0, _⟩ => rfl | ⟨1, _⟩ => rfl]

/-- The hidden layer: the bias row added to every row, then the activation (applied twice, which is once). -/
theorem v8_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) :
    val_main_v8 (F := Ideal) x0 x1 x2 x3 = Cert.Spec.hidden x1 (Cert.Spec.mm x0 x2) (Cert.Spec.row x3) := by
  funext i
  obtain ⟨r, q, rfl⟩ : ∃ (r : Fin 10000) (q : Fin 64), i = ix2 r q := ⟨i 0, i 1, eq_ix2 i⟩
  rw [val_main_v8_apply, val_main_v6_apply, val_main_v4_apply, val_main_v3_apply, val_main_v2_apply, val_main_v5_apply,
    val_main_v7_apply, val_main_cst_apply, val_main_cst_0_apply, v1_eq]
  simp only [Ideal.addf_def, Ideal.maximumf_def, Ideal.ofBits_def, Ideal.ofBits_zero_f32]
  rw [max_assoc, max_self,
    show idx_main_v2 (idx_main_v3 (ix2 r q)) = ix1 q from funext fun a => by match a with | ⟨0, _⟩ => rfl]
  rfl

/-- The first layer with the second layer's projection: relu (adj · (x · W1) + b1) · W2. -/
theorem v9_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) :
    val_main_v9 (F := Ideal) x0 x1 x2 x3 x4 = Cert.Spec.layer1 x1 (Cert.Spec.mm x0 x2) (Cert.Spec.row x3) x4 := by
  funext i
  obtain ⟨r, q, rfl⟩ : ∃ (r : Fin 10000) (q : Fin 16), i = ix2 r q := ⟨i 0, i 1, eq_ix2 i⟩
  rw [val_main_v9_apply, v8_eq]
  refine Eq.trans ?_ (Cert.Spec.mm_apply _ x4 r q).symm
  refine Finset.sum_congr rfl fun k _ => ?_
  rw [show lidx_main_v9 (ix2 r q) k = ix2 r k from funext fun a => by match a with | ⟨0, _⟩ => rfl | ⟨1, _⟩ => rfl,
    show ridx_main_v9 (ix2 r q) k = ix2 k q from funext fun a => by match a with | ⟨0, _⟩ => rfl | ⟨1, _⟩ => rfl]

/-- The logits: adj · h + b2, the bias row added to every row. -/
theorem v13_eq (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) :
    val_main_v13 (F := Ideal) x0 x1 x2 x3 x4 x5
      = Cert.Spec.logits x1 (Cert.Spec.layer1 x1 (Cert.Spec.mm x0 x2) (Cert.Spec.row x3) x4) (Cert.Spec.row x5) := by
  funext i
  obtain ⟨r, q, rfl⟩ : ∃ (r : Fin 10000) (q : Fin 16), i = ix2 r q := ⟨i 0, i 1, eq_ix2 i⟩
  rw [val_main_v13_apply, val_main_v12_apply, val_main_v11_apply, val_main_v10_apply, v9_eq]
  simp only [Ideal.addf_def]
  rw [show idx_main_v11 (idx_main_v12 (ix2 r q)) = ix1 q from funext fun a => by match a with | ⟨0, _⟩ => rfl]
  refine Eq.trans ?_ (show Cert.Spec.mm x1 (Cert.Spec.layer1 x1 (Cert.Spec.mm x0 x2) (Cert.Spec.row x3) x4) (ix2 r q) + x5 (ix1 q) = _ from rfl)
  refine congrArg (· + x5 (ix1 q)) ?_
  rw [Cert.Spec.mm_apply]
  refine Finset.sum_congr rfl fun k _ => ?_
  rw [show lidx_main_v10 (ix2 r q) k = ix2 r k from funext fun a => by match a with | ⟨0, _⟩ => rfl | ⟨1, _⟩ => rfl,
    show ridx_main_v10 (ix2 r q) k = ix2 k q from funext fun a => by match a with | ⟨0, _⟩ => rfl | ⟨1, _⟩ => rfl]

/-- The bit pattern of −∞ denotes the least extended real. -/
theorem neg_inf : Ideal.ofBits .f32 0xFF800000#32 = ⊥ := by simp [Ideal.ofBits, Ideal.ieee]

/-- The row maximum: the fold of max from −∞ over the 16 entries of row j of the logits; a further maximum with −∞ changes nothing. -/
theorem call0_v2_apply (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (j : S10000.Idx) :
    val_main_call0_v2 (F := Ideal) x0 x1 x2 x3 x4 x5 j = Cert.Spec.rowMax (val_main_v13 (F := Ideal) x0 x1 x2 x3 x4 x5) (j 0) := by
  rw [val_main_call0_v2_apply, val_main_call0_v1_apply, val_main_call0_cst_0_apply]
  unfold val_main_call0_v0
  generalize val_main_v13 (F := Ideal) x0 x1 x2 x3 x4 x5 = y
  rw [Host.reduce_eq_fold_single (FloatOps.maximumf (F := Ideal) (φ := .f32)) y _ reducesTo_S10000x16_S10000_d1 (by decide) h_S_ j,
    val_main_call0_cst_apply]
  simp only [Ideal.maximumf_def, Ideal.ofBits_def, neg_inf, max_bot_left]
  have hf : (fun k : Fin 16 => (y ∘ (by decide : S10000x16.Reduces [1] S10000).lift j) k) = fun k : Fin 16 => y (ix2 (j 0) k) :=
    funext fun k => congrArg y (funext fun a => Fin.ext (by match a with | ⟨0, _⟩ => rfl | ⟨1, _⟩ => rfl))
  exact congrArg (fun f => Finset.fold max ⊥ f Finset.univ) hf

/-- The row maximum broadcast back over the row. -/
theorem call0_v4_at (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 10000) (q : Fin 16) :
    val_main_call0_v4 (F := Ideal) x0 x1 x2 x3 x4 x5 (ix2 r q) = Cert.Spec.rowMax (val_main_v13 (F := Ideal) x0 x1 x2 x3 x4 x5) r := by
  rw [val_main_call0_v4_apply, val_main_call0_v3_apply, call0_v2_apply]
  rfl

/-- The logits less their row maximum. -/
theorem call0_v5_at (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 10000) (q : Fin 16) :
    val_main_call0_v5 (F := Ideal) x0 x1 x2 x3 x4 x5 (ix2 r q)
      = (val_main_v13 (F := Ideal) x0 x1 x2 x3 x4 x5) (ix2 r q) - Cert.Spec.rowMax (val_main_v13 (F := Ideal) x0 x1 x2 x3 x4 x5) r := by
  rw [val_main_call0_v5_apply, call0_v4_at]
  rfl

/-- The row sum, from 0, of the exponentials of the shifted logits. -/
theorem call0_v7_at (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 10000) :
    val_main_call0_v7 (F := Ideal) x0 x1 x2 x3 x4 x5 (ix1 r)
      = ∑ k : Fin 16, Ideal.exp ((val_main_v13 (F := Ideal) x0 x1 x2 x3 x4 x5) (ix2 r k) - Cert.Spec.rowMax (val_main_v13 (F := Ideal) x0 x1 x2 x3 x4 x5) r) := by
  rw [val_main_call0_v7_apply, val_main_call0_cst_1_apply]
  simp only [Ideal.ofBits_def, Ideal.ofBits_zero_f32, zero_add]
  refine Finset.sum_congr rfl fun k _ => ?_
  rw [show idx_main_call0_v7 (ix1 r) k = ix2 r k from funext fun a => by match a with | ⟨0, _⟩ => rfl | ⟨1, _⟩ => rfl,
    val_main_call0_v6_apply, call0_v5_at]
  rfl

/-- The logarithm of the row sum, broadcast back over the row. -/
theorem call0_v10_at (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 10000) (q : Fin 16) :
    val_main_call0_v10 (F := Ideal) x0 x1 x2 x3 x4 x5 (ix2 r q)
      = Ideal.log (∑ k : Fin 16, Ideal.exp ((val_main_v13 (F := Ideal) x0 x1 x2 x3 x4 x5) (ix2 r k) - Cert.Spec.rowMax (val_main_v13 (F := Ideal) x0 x1 x2 x3 x4 x5) r)) := by
  rw [val_main_call0_v10_apply, val_main_call0_v9_apply, val_main_call0_v8_apply,
    show idx_main_call0_v8 (idx_main_call0_v10 (ix2 r q)) = ix1 r from funext fun a => by match a with | ⟨0, _⟩ => rfl,
    call0_v7_at]
  rfl

/-- The result is the row-wise log-softmax of the logits. -/
theorem v14_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) :
    val_main_v14 (F := Ideal) x0 x1 x2 x3 x4 x5 = Cert.Spec.logSoftmax (val_main_v13 (F := Ideal) x0 x1 x2 x3 x4 x5) := by
  funext i
  obtain ⟨r, q, rfl⟩ : ∃ (r : Fin 10000) (q : Fin 16), i = ix2 r q := ⟨i 0, i 1, eq_ix2 i⟩
  rw [val_main_v14_apply, call0_v5_at, call0_v10_at]
  rfl

theorem result_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) :
    val_main_v14 (F := Ideal) x0 x1 x2 x3 x4 x5 = Cert.Spec.gcn x0 x1 x2 x3 x4 x5 := by
  rw [v14_eq, v13_eq]
  rfl

end Cert.ReferenceIdeal.RefValue

end
-- ==== Proof.lean ====
/-
  The certificate of a two-layer graph convolution with a dense adjacency matrix and a row-wise log-softmax,
  out = logsoftmax (adj · (relu (adj · (x · W1) + b1) · W2) + b2), computed by three kernels (x · W1 in one block; the
  first layer fused with the second's projection, stripe by stripe of 200 rows of adj; the second layer with the bias and
  the log-softmax in each stripe's epilogue) against the same formula written with whole-array operations.
  At the extended reals both are the function `Cert.Spec.gcn` of the six arguments: a matrix product is the sum of
  products over the contraction index whatever the tiling, a stripe of a product is the product of the stripe, relu
  applied twice is relu, and the maximum of −∞ and a row's maximum is the row's maximum. No law of the extended reals
  beyond these is used, so the precondition is never opened.
-/
import proofs.«158791_g40973988004062_cont_8to1_b_1328_2_alg».proof.Defs
import proofs.«158791_g40973988004062_cont_8to1_b_1328_2_alg».proof.Proof.Gen.Kernel
import proofs.«158791_g40973988004062_cont_8to1_b_1328_2_alg».proof.Proof.Gen.Kernel.Skeleton
import proofs.«158791_g40973988004062_cont_8to1_b_1328_2_alg».proof.Proof.Gen.Kernel.Launch
import proofs.«158791_g40973988004062_cont_8to1_b_1328_2_alg».proof.Proof.Gen.Kernel.Points
import proofs.«158791_g40973988004062_cont_8to1_b_1328_2_alg».proof.Proof.Gen.Kernel.Frame
import proofs.«158791_g40973988004062_cont_8to1_b_1328_2_alg».proof.Proof.Gen.KernelIdeal
import proofs.«158791_g40973988004062_cont_8to1_b_1328_2_alg».proof.Proof.Gen.KernelIdeal.Skeleton
import proofs.«158791_g40973988004062_cont_8to1_b_1328_2_alg».proof.Proof.Gen.KernelIdeal.Launch
import proofs.«158791_g40973988004062_cont_8to1_b_1328_2_alg».proof.Proof.Gen.KernelIdeal.Points
import proofs.«158791_g40973988004062_cont_8to1_b_1328_2_alg».proof.Proof.Gen.KernelIdeal.Frame
import proofs.«158791_g40973988004062_cont_8to1_b_1328_2_alg».proof.Proof.Gen.ReferenceIdeal
import proofs.«158791_g40973988004062_cont_8to1_b_1328_2_alg».proof.Proof.Gen.Pre_finite_inputs
import proofs.«158791_g40973988004062_cont_8to1_b_1328_2_alg».proof.Proof.KernelRun
import proofs.«158791_g40973988004062_cont_8to1_b_1328_2_alg».proof.Proof.KernelValue
import proofs.«158791_g40973988004062_cont_8to1_b_1328_2_alg».proof.Proof.RefRun
import proofs.«158791_g40973988004062_cont_8to1_b_1328_2_alg».proof.Proof.RefRead
import proofs.«158791_g40973988004062_cont_8to1_b_1328_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at `Cert.Spec.gcn` of the arguments, which agree. -/
theorem algebraic : Cert.algebraic_KernelIdeal_ReferenceIdeal := by
  intro m ρ m' ρ' _ hagree
  refine ⟨fun c => Cert.Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.value m ρ c), (h c).2⟩)
      (Cert.KernelIdeal.RunNamed.run_named (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v14_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
